-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S128x64 : Shape := ⟨2, ![128, 64]⟩
abbrev S64 : Shape := ⟨1, ![64]⟩
abbrev S64x64 : Shape := ⟨2, ![64, 64]⟩
abbrev S1 : Shape := ⟨1, ![1]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x64 .f32) (main_arg5 : FVec F S64 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : FVec F S1000000x64 .f32) (main_arg2 : FVec F S128x64 .f32) (main_arg3 : FVec F S64 .f32) (main_arg4 : FVec F S64x64 .f32) (main_arg5 : FVec F S64 .f32) (main_arg6 : FVec F S1 .f32) (main_arg7 : IVec S1000000 32) (main_arg8 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x64 : Shape := ⟨2, ![100000, 64]⟩
abbrev S1000000x64 : Shape := ⟨2, ![1000000, 64]⟩
abbrev S128x64 : Shape := ⟨2, ![128, 64]⟩
abbrev S64 : Shape := ⟨1, ![64]⟩
abbrev S64x64 : Shape := ⟨2, ![64, 64]⟩
abbrev S1 : Shape := ⟨1, ![1]⟩
abbrev S1000000 : Shape := ⟨1, ![1000000]⟩
abbrev S1x64 : Shape := ⟨2, ![1, 64]⟩
abbrev S1x1 : Shape := ⟨2, ![1, 1]⟩
abbrev S_ : Shape := ⟨0, ![]⟩
abbrev S1000000x1 : Shape := ⟨2, ![1000000, 1]⟩
abbrev S8000x64 : Shape := ⟨2, ![8000, 64]⟩
abbrev S10000x64 : Shape := ⟨2, ![10000, 64]⟩

abbrev nBuf : Space → Nat
  | .hbm => 29
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S1x64, .f32⟩
  | .hbm, ⟨10, _⟩ => ⟨S1x64, .f32⟩
  | .hbm, ⟨11, _⟩ => ⟨S1x1, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S64x64, .f32⟩
  | .hbm, ⟨22, _⟩ => ⟨S64x64, .f32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S1x1, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  shapeCasts_S1_S1x1 : S1.ShapeCasts S1x1
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S128x64_S64x64_0_0 : S128x64.Slices ![0, 0] S64x64
  slices_S128x64_S64x64_64_0 : S128x64.Slices ![64, 0] S64x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x64_S10000x64_0_0 : ∀ a, (![0, 0] : Fin 2 → Nat) a + S10000x64.size a ≤ S10000x64.size a
  h_S10000x64 : 0 < S10000x64.numel
  broadcasts_S1x1_S10000x64 : S1x1.Broadcasts S10000x64
  shapeCasts_S10000x64_S10000x64 : S10000x64.ShapeCasts S10000x64
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  dot_S8000x64_S64x64_S8000x64_1_0_0_1_n_n_wf : DotDims.WF S8000x64 S64x64 S8000x64 [1] [0] [0] [1] [] []
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1000000x64.size a
  hwx0_5 : ∀ i : grid0.Coords, EltTy.bits .f32 = 32 ∨ (Rect.block (s := S1000000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v9) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S128x64 : Shape := ⟨2, ![128, 64]⟩
abbrev S64 : Shape := ⟨1, ![64]⟩
abbrev S64x64 : Shape := ⟨2, ![64, 64]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x64 : Shape := ⟨2, ![1, 64]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1, .f32⟩
  | .hbm, ⟨7, _⟩ => ⟨S1000000, .i32⟩
  | .hbm, ⟨8, _⟩ => ⟨S1000000, .i32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S1000000x128, .f32⟩
  | .hbm, ⟨19, _⟩ => ⟨S1000000x64, .f32⟩
  | .hbm, ⟨20, _⟩ => ⟨S1x64, .f32⟩
  | .hbm, ⟨21, _⟩ => ⟨S1000000x64, .f32⟩
  | .hbm, ⟨22, _⟩ => ⟨S1000000x64, .f32⟩
  | .hbm, ⟨23, _⟩ => ⟨S1000000x64, .f32⟩
  | .hbm, ⟨24, _⟩ => ⟨S1000000x64, .f32⟩
  | .hbm, ⟨25, _⟩ => ⟨S_, .f32⟩
  | .hbm, ⟨26, _⟩ => ⟨S1000000x64, .f32⟩
  | .hbm, ⟨27, _⟩ => ⟨S1000000x64, .f32⟩
  | .hbm, ⟨28, _⟩ => ⟨S1000000x64, .f32⟩
  | .hbm, ⟨29, _⟩ => ⟨S_, .f32⟩
  | .hbm, ⟨30, _⟩ => ⟨S1000000x64, .f32⟩
  | .hbm, ⟨31, _⟩ => ⟨S1000000x64, .f32⟩
  | .hbm, ⟨32, _⟩ => ⟨S1000000x64, .f32⟩
  | .hbm, ⟨33, _⟩ => ⟨S_, .f32⟩
  | .hbm, ⟨34, _⟩ => ⟨S1000000x64, .f32⟩
  | .hbm, ⟨35, _⟩ => ⟨S1000000x64, .f32⟩
  | .hbm, ⟨36, _⟩ => ⟨S_, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S_, .f32⟩
  | .hbm, ⟨41, _⟩ => ⟨S100000x64, .f32⟩
  | .hbm, ⟨42, _⟩ => ⟨S1000000x1, .i32⟩
  | .hbm, ⟨43, _⟩ => ⟨S100000x64, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S1 : S_.BroadcastsInDim S1 (![] : Fin 0 → Fin S1.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The mathematics both programs compute, stated once over the extended reals, with no program in sight.

  A message-passing layer.  For every edge `e` with source node `s(e)`:
      msg[e, j] = gelu( Σ_{k<64} x[s(e), k] · W[k, j]  +  Σ_{k<64} ef[e, k] · W[64 + k, j]  +  b[j] ),
  the first sum over the gathered source-node features, the second over the edge's own features: a product of the
  128-long joined row `[x[s(e)] ‖ ef[e]]` with the 128 × 64 weight, cut at column 64 of the joined row.
  For every node `n`, with `agg` the per-node sum of the messages of the edges that point at it:
      out[n, j] = gelu( Σ_{k<64} ((1 + ε) · x[n, k] + agg[n, k]) · U[k, j]  +  c[j] ).
  `gelu` is the tanh form  x · (½ · (1 + tanh(√(2/π)~ · (x + 0.044715~ · x³)))), its four constants the f32 words
  both programs print, read as the exact dyadic rationals those words denote.

  The one law that is used between the two programs' spellings: a sum over 128 terms is the sum of its first 64
  terms plus the sum of its last 64 (addition on the extended reals is commutative and associative, infinities or
  not), and the cube `x · (x · x)` is `(x · x) · x`.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- The tanh-form gelu at one extended real: `x · (½ · (1 + tanh(c₂ · (x + c₁ · (x · (x · x))))))`, the four
    constants the printed f32 words. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The same with the cube associated the other way, `(x · x) · x`. -/
theorem gelu_cube_left (x : EReal) :
    x * (Ideal.ofBits .f32 0x3F000000#32 * (Ideal.ofBits .f32 0x3F800000#32
      + Ideal.tanh (Ideal.ofBits .f32 0x3F4C422A#32 * (x + Ideal.ofBits .f32 0x3D372713#32 * (x * x * x))))) = gelu x := by
  unfold gelu
  rw [mul_comm (x * x) x]

/-- A sum of 128 terms is the sum of the first 64 plus the sum of the last 64. -/
theorem sum_128_split {M : Type*} [AddCommMonoid M] (f : Fin 128 → M) :
    ∑ k : Fin 128, f k
      = (∑ k : Fin 64, f ⟨k.val, Nat.lt_of_lt_of_le k.isLt (by decide)⟩)
        + ∑ k : Fin 64, f ⟨64 + k.val, Nat.add_lt_add_left k.isLt 64⟩ :=
  Fin.sum_univ_add (a := 64) (b := 64) f

/-- One entry of the message array: edge `r`, feature `q`.  `G` is the gathered source-node rows, `E` the edge
    features, `W` the 128 × 64 weight (rows 0–63 meet `G`, rows 64–127 meet `E`), `b` the bias. -/
def msgAt (G E : (⟨2, ![1000000, 64]⟩ : Shape).Idx → EReal) (W : (⟨2, ![128, 64]⟩ : Shape).Idx → EReal)
    (b : (⟨1, ![64]⟩ : Shape).Idx → EReal) (r : Fin 1000000) (q : Fin 64) : EReal :=
  gelu ((∑ k : Fin 64, G (ix2 r k) * W (ix2 (⟨k.val, Nat.lt_of_lt_of_le k.isLt (by decide)⟩ : Fin 128) q))
    + (∑ k : Fin 64, E (ix2 r k) * W (ix2 (⟨64 + k.val, Nat.add_lt_add_left k.isLt 64⟩ : Fin 128) q))
    + b (ix1 q))

/-- The message array. -/
def msgArr (G E : (⟨2, ![1000000, 64]⟩ : Shape).Idx → EReal) (W : (⟨2, ![128, 64]⟩ : Shape).Idx → EReal)
    (b : (⟨1, ![64]⟩ : Shape).Idx → EReal) : (⟨2, ![1000000, 64]⟩ : Shape).Idx → EReal :=
  fun i => msgAt G E W b (i 0) (i 1)

/-- One entry of the result: node `r`, feature `q`.  `X` is the node features, `A` the aggregated messages, `U`
    the 64 × 64 weight, `c` the bias, `ε` the one-element scale. -/
def updAt (X A : (⟨2, ![100000, 64]⟩ : Shape).Idx → EReal) (U : (⟨2, ![64, 64]⟩ : Shape).Idx → EReal)
    (c : (⟨1, ![64]⟩ : Shape).Idx → EReal) (ε : (⟨1, ![1]⟩ : Shape).Idx → EReal) (r : Fin 100000) (q : Fin 64) : EReal :=
  gelu ((∑ k : Fin 64, ((Ideal.ofBits .f32 0x3F800000#32 + ε (ix1 (0 : Fin 1))) * X (ix2 r k) + A (ix2 r k)) * U (ix2 k q))
    + c (ix1 q))

/-- The result array. -/
def updArr (X A : (⟨2, ![100000, 64]⟩ : Shape).Idx → EReal) (U : (⟨2, ![64, 64]⟩ : Shape).Idx → EReal)
    (c : (⟨1, ![64]⟩ : Shape).Idx → EReal) (ε : (⟨1, ![1]⟩ : Shape).Idx → EReal) : (⟨2, ![100000, 64]⟩ : Shape).Idx → EReal :=
  fun i => updAt X A U c ε (i 0) (i 1)

/-! ## The same two arrays as the kernel's two calls spell them

The first call is handed the weight already cut into its top and bottom halves and the bias as a one-row matrix;
the second is handed its bias as a one-row matrix and `ε` as a 1 × 1 matrix. -/

/-- One message entry from the two weight halves `Wt`, `Wb` and the one-row bias `b2`. -/
def msgAtK (G E : (⟨2, ![1000000, 64]⟩ : Shape).Idx → EReal) (Wt Wb : (⟨2, ![64, 64]⟩ : Shape).Idx → EReal)
    (b2 : (⟨2, ![1, 64]⟩ : Shape).Idx → EReal) (r : Fin 1000000) (q : Fin 64) : EReal :=
  gelu ((∑ k : Fin 64, G (ix2 r k) * Wt (ix2 k q)) + (∑ k : Fin 64, E (ix2 r k) * Wb (ix2 k q)) + b2 (ix2 (0 : Fin 1) q))

def msgArrK (G E : (⟨2, ![1000000, 64]⟩ : Shape).Idx → EReal) (Wt Wb : (⟨2, ![64, 64]⟩ : Shape).Idx → EReal)
    (b2 : (⟨2, ![1, 64]⟩ : Shape).Idx → EReal) : (⟨2, ![1000000, 64]⟩ : Shape).Idx → EReal :=
  fun i => msgAtK G E Wt Wb b2 (i 0) (i 1)

/-- With `Wt` rows 0–63 of `W`, `Wb` rows 64–127 and `b2` the bias as a row, the two spellings are one array. -/
theorem msgArrK_eq (G E : (⟨2, ![1000000, 64]⟩ : Shape).Idx → EReal) (W : (⟨2, ![128, 64]⟩ : Shape).Idx → EReal)
    (b : (⟨1, ![64]⟩ : Shape).Idx → EReal) (Wt Wb : (⟨2, ![64, 64]⟩ : Shape).Idx → EReal)
    (b2 : (⟨2, ![1, 64]⟩ : Shape).Idx → EReal)
    (hWt : ∀ k q : Fin 64, Wt (ix2 k q) = W (ix2 (⟨k.val, Nat.lt_of_lt_of_le k.isLt (by decide)⟩ : Fin 128) q))
    (hWb : ∀ k q : Fin 64, Wb (ix2 k q) = W (ix2 (⟨64 + k.val, Nat.add_lt_add_left k.isLt 64⟩ : Fin 128) q))
    (hb : ∀ q : Fin 64, b2 (ix2 (0 : Fin 1) q) = b (ix1 q)) :
    msgArrK G E Wt Wb b2 = msgArr G E W b := by
  have h : ∀ (r : Fin 1000000) (q : Fin 64), msgAtK G E Wt Wb b2 r q = msgAt G E W b r q := fun r q => by
    unfold msgAtK msgAt
    simp only [hWt, hWb, hb]
  exact funext fun i => h (i 0) (i 1)

/-- One result entry from the one-row bias `c2` and the 1 × 1 scale `e2`. -/
def updAtK (X A : (⟨2, ![100000, 64]⟩ : Shape).Idx → EReal) (U : (⟨2, ![64, 64]⟩ : Shape).Idx → EReal)
    (c2 : (⟨2, ![1, 64]⟩ : Shape).Idx → EReal) (e2 : (⟨2, ![1, 1]⟩ : Shape).Idx → EReal) (r : Fin 100000) (q : Fin 64) : EReal :=
  gelu ((∑ k : Fin 64, ((Ideal.ofBits .f32 0x3F800000#32 + e2 (ix2 (0 : Fin 1) (0 : Fin 1))) * X (ix2 r k) + A (ix2 r k)) * U (ix2 k q))
    + c2 (ix2 (0 : Fin 1) q))

def updArrK (X A : (⟨2, ![100000, 64]⟩ : Shape).Idx → EReal) (U : (⟨2, ![64, 64]⟩ : Shape).Idx → EReal)
    (c2 : (⟨2, ![1, 64]⟩ : Shape).Idx → EReal) (e2 : (⟨2, ![1, 1]⟩ : Shape).Idx → EReal) : (⟨2, ![100000, 64]⟩ : Shape).Idx → EReal :=
  fun i => updAtK X A U c2 e2 (i 0) (i 1)

theorem updArrK_eq (X A : (⟨2, ![100000, 64]⟩ : Shape).Idx → EReal) (U : (⟨2, ![64, 64]⟩ : Shape).Idx → EReal)
    (c : (⟨1, ![64]⟩ : Shape).Idx → EReal) (ε : (⟨1, ![1]⟩ : Shape).Idx → EReal)
    (c2 : (⟨2, ![1, 64]⟩ : Shape).Idx → EReal) (e2 : (⟨2, ![1, 1]⟩ : Shape).Idx → EReal)
    (hc : ∀ q : Fin 64, c2 (ix2 (0 : Fin 1) q) = c (ix1 q)) (he : e2 (ix2 (0 : Fin 1) (0 : Fin 1)) = ε (ix1 (0 : Fin 1))) :
    updArrK X A U c2 e2 = updArr X A U c ε := by
  have h : ∀ (r : Fin 100000) (q : Fin 64), updAtK X A U c2 e2 r q = updAt X A U c ε r q := fun r q => by
    unfold updAtK updAt
    simp only [hc, he]
  exact funext fun i => h (i 0) (i 1)

end Cert.Layer

end
-- ==== Proof.MessageCall.lean ====
/-
  The first call (the message kernel), read as a value: whatever the device's buffers hold when the call is
  entered, the array it writes ends holding `Layer.msgArrK` of the five arrays it reads.

  Grid point `t` of 125 handles edges `8000·t … 8000·t + 7999`: it stages rows `8000·t + p` of the gathered
  source features and of the edge features, the two 64 × 64 weight halves and the one-row bias whole, and stores
  one 8000 × 64 block whose entry `(p, q)` is `gelu(Σₖ g[p,k]·Wt[k,q] + Σₖ e[p,k]·Wb[k,q] + b[0,q])` — a matrix
  product into a zero accumulator is the plain sum over the contracted axis, and the narrowing of the operands
  to bf16 is the identity on the extended reals.  The 125 blocks tile the 1 000 000 rows.
-/
import proofs.«425332_j21088289423715_3_alg».proof.Proof.Gen.KernelIdeal.Frame
import proofs.«425332_j21088289423715_3_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl

/-! ## The matrix product of the body, at an index -/

theorem lhs0_0 (i : S8000x64.Idx) (q : dot_S8000x64_S64x64_S8000x64_1_0_0_1_n_n.contr.Idx) : (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs0_1 (i : S8000x64.Idx) (q : dot_S8000x64_S64x64_S8000x64_1_0_0_1_n_n.contr.Idx) : (dot_S8000x64_S64x64_S8000x64_1_0_0_1_n_n.lhsIdx i q 1).val = (q ⟨0, by decide⟩).val :=
  dot_S8000x64_S64x64_S8000x64_1_0_0_1_n_n.lhsIdx_val_of_single rfl i q
theorem rhs0_0 (i : S8000x64.Idx) (q : dot_S8000x64_S64x64_S8000x64_1_0_0_1_n_n.contr.Idx) : (dot_S8000x64_S64x64_S8000x64_1_0_0_1_n_n.rhsIdx i q 0).val = (q ⟨0, by decide⟩).val :=
  dot_S8000x64_S64x64_S8000x64_1_0_0_1_n_n.rhsIdx_val_of_single rfl i q
theorem rhs0_1 (i : S8000x64.Idx) (q : dot_S8000x64_S64x64_S8000x64_1_0_0_1_n_n.contr.Idx) : (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- An 8000 × 64 by 64 × 64 product into the zero accumulator, at `(p, q)`: the sum over the 64 contracted columns. -/
theorem mm0 (a : FVec Ideal S8000x64 .bf16) (b : FVec Ideal S64x64 .bf16) (p : Fin 8000) (q : Fin 64) :
    matmul dot_S8000x64_S64x64_S8000x64_1_0_0_1_n_n none a b (constant S8000x64 .f32 0x00000000#32) (ix2 p q) = ∑ k : Fin 64, a (ix2 p k) * b (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]

theorem tanh_apply {s : Shape} {φ : FTy} (a : FVec Ideal s φ) (i : s.Idx) : tanh a i = FloatOps.tanh (a i) := rfl

/-- The body's one stored value at `(p, q)`, from the five blocks it loads. -/
theorem pay0_apply (x0 x1 : FVec Ideal S8000x64 .f32) (x2 x3 : FVec Ideal S64x64 .f32) (x4 : FVec Ideal S1x64 .f32)
    (p : Fin 8000) (q : Fin 64) :
    k0_pay1 (F := Ideal) x0 x1 x2 x3 x4 (ix2 p q)
      = Layer.gelu ((∑ k : Fin 64, x0 (ix2 p k) * x2 (ix2 k q)) + (∑ k : Fin 64, x1 (ix2 p k) * x3 (ix2 k q)) + x4 (ix2 (0 : Fin 1) q)) := by
  unfold k0_pay1
  simp only [mulf_apply, addf_apply, broadcast_apply, tanh_apply, mm0, truncf_apply, shapeCast_self,
    ValueIdx.broadcastTo_1b_ab_apply, Ideal.tanh_def, Ideal.ofBits_def]
  rfl

/-! ## The windows' blocks, read where the grid point puts them -/

variable (V : (c : Dev nD) → (b : Ref sig .tc) → Buf (Elt Ideal) ((c : Thread nD τ).loc b))

/-- The edge that row `p` of grid point `t`'s block stands for: `8000·t + p`. -/
def edgeOf (t : Fin cfg0.N) (p : Fin 8000) : Fin 1000000 :=
  ⟨t.val * 8000 + p.val, by have h := lt_of_lt_of_eq t.isLt N_0; have := p.isLt; omega⟩

/-- The printed index maps over the grid: the two streamed inputs and the output sit at block row `t`, the
    weights and the bias at block `(0, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem blk0_0 (c : Dev nD) (t : Fin cfg0.N) (p : Fin 8000) (k : Fin 64) :
    iblk0 V c 0 t (ix2 p k) = V c main_v9 (ix2 (edgeOf t p) k) := by
  show V c main_v9 (((cfg0.win 0).blk t).view.emb (ix2 p k)) = V c main_v9 (ix2 (edgeOf t p) k)
  refine congrArg (V c main_v9) (funext fun a => Fin.ext ?_)
  obtain ⟨e0, e1, -⟩ := idx_facts0 t
  match a with
  | ⟨0, _⟩ => show win0_0.index t (0 : Fin 2) * 8000 + 1 * p.val = t.val * 8000 + p.val; omega
  | ⟨1, _⟩ => show win0_0.index t (1 : Fin 2) * 64 + 1 * k.val = k.val; omega

theorem blk0_1 (c : Dev nD) (t : Fin cfg0.N) (p : Fin 8000) (k : Fin 64) :
    iblk0 V c 1 t (ix2 p k) = V c main_arg1 (ix2 (edgeOf t p) k) := by
  show V c main_arg1 (((cfg0.win 1).blk t).view.emb (ix2 p k)) = V c main_arg1 (ix2 (edgeOf t p) k)
  refine congrArg (V c main_arg1) (funext fun a => Fin.ext ?_)
  obtain ⟨-, -, e0, e1, -⟩ := idx_facts0 t
  match a with
  | ⟨0, _⟩ => show win0_1.index t (0 : Fin 2) * 8000 + 1 * p.val = t.val * 8000 + p.val; omega
  | ⟨1, _⟩ => show win0_1.index t (1 : Fin 2) * 64 + 1 * k.val = k.val; omega

theorem blk0_2 (c : Dev nD) (t : Fin cfg0.N) (k q : Fin 64) :
    iblk0 V c 2 t (ix2 k q) = V c main_v10 (ix2 k q) := by
  show V c main_v10 (((cfg0.win 2).blk t).view.emb (ix2 k q)) = V c main_v10 (ix2 k q)
  refine congrArg (V c main_v10) (funext fun a => Fin.ext ?_)
  obtain ⟨-, -, -, -, e0, e1, -⟩ := idx_facts0 t
  match a with
  | ⟨0, _⟩ => show win0_2.index t (0 : Fin 2) * 64 + 1 * k.val = k.val; omega
  | ⟨1, _⟩ => show win0_2.index t (1 : Fin 2) * 64 + 1 * q.val = q.val; omega

theorem blk0_3 (c : Dev nD) (t : Fin cfg0.N) (k q : Fin 64) :
    iblk0 V c 3 t (ix2 k q) = V c main_v11 (ix2 k q) := by
  show V c main_v11 (((cfg0.win 3).blk t).view.emb (ix2 k q)) = V c main_v11 (ix2 k q)
  refine congrArg (V c main_v11) (funext fun a => Fin.ext ?_)
  obtain ⟨-, -, -, -, -, -, e0, e1, -⟩ := idx_facts0 t
  match a with
  | ⟨0, _⟩ => show win0_3.index t (0 : Fin 2) * 64 + 1 * k.val = k.val; omega
  | ⟨1, _⟩ => show win0_3.index t (1 : Fin 2) * 64 + 1 * q.val = q.val; omega

theorem blk0_4 (c : Dev nD) (t : Fin cfg0.N) (q : Fin 64) :
    iblk0 V c 4 t (ix2 (0 : Fin 1) q) = V c main_v0 (ix2 (0 : Fin 1) q) := by
  show V c main_v0 (((cfg0.win 4).blk t).view.emb (ix2 (0 : Fin 1) q)) = V c main_v0 (ix2 (0 : Fin 1) q)
  refine congrArg (V c main_v0) (funext fun a => Fin.ext ?_)
  obtain ⟨-, -, -, -, -, -, -, -, e0, e1, -⟩ := idx_facts0 t
  match a with
  | ⟨0, _⟩ => show win0_4.index t (0 : Fin 2) * 1 + 1 * 0 = 0; omega
  | ⟨1, _⟩ => show win0_4.index t (1 : Fin 2) * 64 + 1 * q.val = q.val; omega

/-- Where entry `(p, q)` of point `t`'s output block lands in the message array. -/
theorem emb0_5 (t : Fin cfg0.N) (p : Fin 8000) (q : Fin 64) :
    ((cfg0.win 5).blk t).view.emb (ix2 p q) = ix2 (edgeOf t p) q := by
  refine funext fun a => Fin.ext ?_
  obtain ⟨-, -, -, -, -, -, -, -, -, -, e0, e1⟩ := idx_facts0 t
  match a with
  | ⟨0, _⟩ => show win0_5.index t (0 : Fin 2) * 8000 + 1 * p.val = t.val * 8000 + p.val; omega
  | ⟨1, _⟩ => show win0_5.index t (1 : Fin 2) * 64 + 1 * q.val = q.val; omega

/-! ## What a grid point writes back, and the whole array -/

/-- WHAT POINT `t` WRITES BACK is block `t` of the message array of the five arrays as the call finds them. -/
theorem msg_flushed (c : Dev nD) (t : Fin cfg0.N) :
    (dat0 V c).flushed 5 t = ((cfg0.win 5).blk t).view.read (Elt Ideal)
      (Layer.msgArrK (V c main_v9) (V c main_arg1) (V c main_v10) (V c main_v11) (V c main_v0)) := by
  show (cfg0.win 5).cut (grid0.coords t) ((dat0 V c).after 5 t) = _
  rw [after0_5]
  unfold out0_5
  rw [View.canon_unit_zero hz2]
  simp only [View.ld_unit_zero (S := S8000x64) hz2, View.ld_unit_zero (S := S64x64) hz2, View.ld_unit_zero (S := S1x64) hz2]
  funext j
  obtain ⟨p, q, rfl⟩ : ∃ (p : Fin 8000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Layer.msgArrK (V c main_v9) (V c main_arg1) (V c main_v10) (V c main_v11) (V c main_v0) (((cfg0.win 5).blk t).view.emb (ix2 p q))
  rw [pay0_apply (iblk0 V c 0 t) (iblk0 V c 1 t) (iblk0 V c 2 t) (iblk0 V c 3 t) (iblk0 V c 4 t) p q, emb0_5 t p q]
  simp only [blk0_0 V c t, blk0_1 V c t, blk0_2 V c t, blk0_3 V c t, blk0_4 V c t]
  rfl

/-- An index of the message array is in point `t`'s block iff each coordinate is in the block's range on its axis. -/
theorem mem_blk0_5 (t : Fin cfg0.N) (i : S1000000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v12).slice (win0_5.rect t)).set ↔ _
  rw [View.set_slice_whole, Rect.mem_set_unit]
  exact Iff.rfl

/-- Every edge's row is in the block of the point `edge / 8000`. -/
theorem msg_cover (i : S1000000x64.Idx) :
    ∃ t : Fin cfg0.N, (cfg0.win 5).flush t = true ∧ i ∈ ((cfg0.win 5).blk t).view.set := by
  have hi0 : (i 0).val < 1000000 := (i 0).isLt
  have hi1 : (i 1).val < 64 := (i 1).isLt
  have ht : (i 0).val / 8000 < cfg0.N := lt_of_lt_of_eq (by omega : (i 0).val / 8000 < 125) N_0.symm
  obtain ⟨-, -, -, -, -, -, -, -, -, -, e0, e1⟩ := idx_facts0 ⟨(i 0).val / 8000, ht⟩
  refine ⟨⟨(i 0).val / 8000, ht⟩, flush0_5 _, ?_⟩
  rw [mem_blk0_5]
  intro a
  match a with
  | ⟨0, _⟩ =>
    show win0_5.index ⟨(i 0).val / 8000, ht⟩ (0 : Fin 2) * 8000 ≤ (i 0).val ∧ (i 0).val < win0_5.index ⟨(i 0).val / 8000, ht⟩ (0 : Fin 2) * 8000 + 8000
    have e0' : win0_5.index ⟨(i 0).val / 8000, ht⟩ (0 : Fin 2) = (i 0).val / 8000 := e0
    omega
  | ⟨1, _⟩ =>
    show win0_5.index ⟨(i 0).val / 8000, ht⟩ (1 : Fin 2) * 64 ≤ (i 1).val ∧ (i 1).val < win0_5.index ⟨(i 0).val / 8000, ht⟩ (1 : Fin 2) * 64 + 64
    omega

/-- THE MESSAGE ARRAY after the call: `Layer.msgArrK` of the five arrays as the call finds them. -/
theorem msg_final (c : Dev nD) :
    (dat0 V c).arrAt 5 cfg0.N = Layer.msgArrK (V c main_v9) (V c main_arg1) (V c main_v10) (V c main_v11) (V c main_v0) :=
  (dat0 V c).arrAt_eq_of_cover 5 _ (fun t _ => msg_flushed V c t) msg_cover

end Cert.KernelIdeal.Whole

end
-- ==== Proof.UpdateCall.lean ====
/-
  The second call (the update kernel), read as a value: whatever the device's buffers hold when the call is
  entered, the array it writes ends holding `Layer.updArrK` of the five arrays it reads.

  Grid point `t` of 10 handles nodes `10000·t … 10000·t + 9999`: it stages those rows of the node features and
  of the aggregated messages, the 64 × 64 weight, the one-row bias and the 1 × 1 scale whole, and stores one
  10000 × 64 block whose entry `(p, q)` is `gelu(Σₖ ((1 + ε)·x[p,k] + a[p,k])·U[k,q] + c[0,q])`.
  The 10 blocks tile the 100 000 rows.
-/
import proofs.«425332_j21088289423715_3_alg».proof.Proof.Gen.KernelIdeal.Frame
import proofs.«425332_j21088289423715_3_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole.Upd

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl

/-! ## The matrix product of the body, at an index -/

theorem lhs1_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs1_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs1_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs1_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000 × 64 by 64 × 64 product into the zero accumulator, at `(p, q)`: the sum over the 64 contracted columns. -/
theorem mm1 (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q) = ∑ k : Fin 64, a (ix2 p k) * b (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs1_0 _ _
    | ⟨1, _⟩ => exact (lhs1_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs1_0 _ _).trans hk
    | ⟨1, _⟩ => exact rhs1_1 _ _)
  rw [el, er]

theorem tanh_apply {s : Shape} {φ : FTy} (a : FVec Ideal s φ) (i : s.Idx) : tanh a i = FloatOps.tanh (a i) := rfl

/-- A 1 × 1 matrix spread over an `a × b` one reads, anywhere, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The body's one stored value at `(p, q)`, from the five blocks it loads (`e` the scale, `x` the node rows,
    `a` the aggregated rows, `u` the weight, `b` the bias row). -/
theorem pay1_apply (e : FVec Ideal S1x1 .f32) (x a : FVec Ideal S10000x64 .f32) (u : FVec Ideal S64x64 .f32) (b : FVec Ideal S1x64 .f32)
    (p : Fin 10000) (q : Fin 64) :
    k1_pay1 (F := Ideal) e x a u b (ix2 p q)
      = Layer.gelu ((∑ k : Fin 64, ((Ideal.ofBits .f32 0x3F800000#32 + e (ix2 (0 : Fin 1) (0 : Fin 1))) * x (ix2 p k) + a (ix2 p k)) * u (ix2 k q))
          + b (ix2 (0 : Fin 1) q)) := by
  unfold k1_pay1
  simp only [mulf_apply, addf_apply, broadcast_apply, tanh_apply, mm1, truncf_apply, shapeCast_self,
    ValueIdx.broadcastTo_1b_ab_apply, broadcastTo_11_ab_apply, Ideal.tanh_def, Ideal.ofBits_def]
  rfl

/-! ## The windows' blocks, read where the grid point puts them -/

variable (V : (c : Dev nD) → (b : Ref sig .tc) → Buf (Elt Ideal) ((c : Thread nD τ).loc b))

/-- The node that row `p` of grid point `t`'s block stands for: `10000·t + p`. -/
def nodeOf (t : Fin cfg1.N) (p : Fin 10000) : Fin 100000 :=
  ⟨t.val * 10000 + p.val, by have h := lt_of_lt_of_eq t.isLt N_1; have := p.isLt; omega⟩

/-- The printed index maps over the grid: the two streamed inputs and the output sit at block row `t`, the
    weight, the bias and the scale at block `(0, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem blk1_0 (c : Dev nD) (t : Fin cfg1.N) (p : Fin 10000) (k : Fin 64) :
    iblk1 V c 0 t (ix2 p k) = V c main_arg0 (ix2 (nodeOf t p) k) := by
  show V c main_arg0 (((cfg1.win 0).blk t).view.emb (ix2 p k)) = V c main_arg0 (ix2 (nodeOf t p) k)
  refine congrArg (V c main_arg0) (funext fun a => Fin.ext ?_)
  obtain ⟨e0, e1, -⟩ := idx_facts1 t
  match a with
  | ⟨0, _⟩ => show win1_0.index t (0 : Fin 2) * 10000 + 1 * p.val = t.val * 10000 + p.val; omega
  | ⟨1, _⟩ => show win1_0.index t (1 : Fin 2) * 64 + 1 * k.val = k.val; omega

theorem blk1_1 (c : Dev nD) (t : Fin cfg1.N) (p : Fin 10000) (k : Fin 64) :
    iblk1 V c 1 t (ix2 p k) = V c main_v15 (ix2 (nodeOf t p) k) := by
  show V c main_v15 (((cfg1.win 1).blk t).view.emb (ix2 p k)) = V c main_v15 (ix2 (nodeOf t p) k)
  refine congrArg (V c main_v15) (funext fun a => Fin.ext ?_)
  obtain ⟨-, -, e0, e1, -⟩ := idx_facts1 t
  match a with
  | ⟨0, _⟩ => show win1_1.index t (0 : Fin 2) * 10000 + 1 * p.val = t.val * 10000 + p.val; omega
  | ⟨1, _⟩ => show win1_1.index t (1 : Fin 2) * 64 + 1 * k.val = k.val; omega

theorem blk1_2 (c : Dev nD) (t : Fin cfg1.N) (k q : Fin 64) :
    iblk1 V c 2 t (ix2 k q) = V c main_arg4 (ix2 k q) := by
  show V c main_arg4 (((cfg1.win 2).blk t).view.emb (ix2 k q)) = V c main_arg4 (ix2 k q)
  refine congrArg (V c main_arg4) (funext fun a => Fin.ext ?_)
  obtain ⟨-, -, -, -, e0, e1, -⟩ := idx_facts1 t
  match a with
  | ⟨0, _⟩ => show win1_2.index t (0 : Fin 2) * 64 + 1 * k.val = k.val; omega
  | ⟨1, _⟩ => show win1_2.index t (1 : Fin 2) * 64 + 1 * q.val = q.val; omega

theorem blk1_3 (c : Dev nD) (t : Fin cfg1.N) (q : Fin 64) :
    iblk1 V c 3 t (ix2 (0 : Fin 1) q) = V c main_v1 (ix2 (0 : Fin 1) q) := by
  show V c main_v1 (((cfg1.win 3).blk t).view.emb (ix2 (0 : Fin 1) q)) = V c main_v1 (ix2 (0 : Fin 1) q)
  refine congrArg (V c main_v1) (funext fun a => Fin.ext ?_)
  obtain ⟨-, -, -, -, -, -, e0, e1, -⟩ := idx_facts1 t
  match a with
  | ⟨0, _⟩ => show win1_3.index t (0 : Fin 2) * 1 + 1 * 0 = 0; omega
  | ⟨1, _⟩ => show win1_3.index t (1 : Fin 2) * 64 + 1 * q.val = q.val; omega

theorem blk1_4 (c : Dev nD) (t : Fin cfg1.N) :
    iblk1 V c 4 t (ix2 (0 : Fin 1) (0 : Fin 1)) = V c main_v2 (ix2 (0 : Fin 1) (0 : Fin 1)) := by
  show V c main_v2 (((cfg1.win 4).blk t).view.emb (ix2 (0 : Fin 1) (0 : Fin 1))) = V c main_v2 (ix2 (0 : Fin 1) (0 : Fin 1))
  refine congrArg (V c main_v2) (funext fun a => Fin.ext ?_)
  obtain ⟨-, -, -, -, -, -, -, -, e0, e1, -⟩ := idx_facts1 t
  match a with
  | ⟨0, _⟩ => show win1_4.index t (0 : Fin 2) * 1 + 1 * 0 = 0; omega
  | ⟨1, _⟩ => show win1_4.index t (1 : Fin 2) * 1 + 1 * 0 = 0; omega

/-- Where entry `(p, q)` of point `t`'s output block lands in the result array. -/
theorem emb1_5 (t : Fin cfg1.N) (p : Fin 10000) (q : Fin 64) :
    ((cfg1.win 5).blk t).view.emb (ix2 p q) = ix2 (nodeOf t p) q := by
  refine funext fun a => Fin.ext ?_
  obtain ⟨-, -, -, -, -, -, -, -, -, -, e0, e1⟩ := idx_facts1 t
  match a with
  | ⟨0, _⟩ => show win1_5.index t (0 : Fin 2) * 10000 + 1 * p.val = t.val * 10000 + p.val; omega
  | ⟨1, _⟩ => show win1_5.index t (1 : Fin 2) * 64 + 1 * q.val = q.val; omega

/-! ## What a grid point writes back, and the whole array -/

/-- WHAT POINT `t` WRITES BACK is block `t` of the result array of the five arrays as the call finds them. -/
theorem upd_flushed (c : Dev nD) (t : Fin cfg1.N) :
    (dat1 V c).flushed 5 t = ((cfg1.win 5).blk t).view.read (Elt Ideal)
      (Layer.updArrK (V c main_arg0) (V c main_v15) (V c main_arg4) (V c main_v1) (V c main_v2)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S64x64) hz2, View.ld_unit_zero (S := S1x64) hz2,
    View.ld_unit_zero (S := S1x1) hz2]
  funext j
  obtain ⟨p, q, rfl⟩ : ∃ (p : Fin 10000) (q : Fin 64), j = ix2 p q := ⟨j 0, j 1, eq_ix2 j⟩
  show k1_pay1 (F := Ideal) (iblk1 V c 4 t) (iblk1 V c 0 t) (iblk1 V c 1 t) (iblk1 V c 2 t) (iblk1 V c 3 t) (ix2 p q)
    = Layer.updArrK (V c main_arg0) (V c main_v15) (V c main_arg4) (V c main_v1) (V c main_v2) (((cfg1.win 5).blk t).view.emb (ix2 p q))
  rw [pay1_apply (iblk1 V c 4 t) (iblk1 V c 0 t) (iblk1 V c 1 t) (iblk1 V c 2 t) (iblk1 V c 3 t) p q, emb1_5 t p q]
  simp only [blk1_0 V c t, blk1_1 V c t, blk1_2 V c t, blk1_3 V c t, blk1_4 V c t]
  rfl

/-- An index of the result array is in point `t`'s block iff each coordinate is in the block's range on its axis. -/
theorem mem_blk1_5 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v16).slice (win1_5.rect t)).set ↔ _
  rw [View.set_slice_whole, Rect.mem_set_unit]
  exact Iff.rfl

/-- Every node's row is in the block of the point `node / 10000`. -/
theorem upd_cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 10000 < cfg1.N := lt_of_lt_of_eq (by omega : (i 0).val / 10000 < 10) N_1.symm
  obtain ⟨-, -, -, -, -, -, -, -, -, -, e0, e1⟩ := idx_facts1 ⟨(i 0).val / 10000, ht⟩
  refine ⟨⟨(i 0).val / 10000, ht⟩, flush1_5 _, ?_⟩
  rw [mem_blk1_5]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    have e0' : win1_5.index ⟨(i 0).val / 10000, ht⟩ (0 : Fin 2) = (i 0).val / 10000 := e0
    omega
  | ⟨1, _⟩ =>
    show win1_5.index ⟨(i 0).val / 10000, ht⟩ (1 : Fin 2) * 64 ≤ (i 1).val ∧ (i 1).val < win1_5.index ⟨(i 0).val / 10000, ht⟩ (1 : Fin 2) * 64 + 64
    omega

/-- THE RESULT ARRAY after the call: `Layer.updArrK` of the five arrays as the call finds them. -/
theorem upd_final (c : Dev nD) :
    (dat1 V c).arrAt 5 cfg1.N = Layer.updArrK (V c main_arg0) (V c main_v15) (V c main_arg4) (V c main_v1) (V c main_v2) :=
  (dat1 V c).arrAt_eq_of_cover 5 _ (fun t _ => upd_flushed V c t) upd_cover

end Cert.KernelIdeal.Whole.Upd

end
-- ==== Proof.KernelValue.lean ====
/-
  The whole kernel program as a value: its result array, after both calls, as one function of the nine
  argument arrays.

  Between the launch and the first call the host gathers the source-node rows (a negative index first wrapped by
  the number of nodes), cuts the 128 × 64 weight into its two 64-row halves and turns the two biases and the
  scale into one-row matrices; between the calls it sums the messages per target node (a scatter-add into a zero
  array).  The first call writes `Layer.msgArrK` of what it is handed, the second `Layer.updArrK`; with the
  halves and the one-row forms read back to the arguments these are `Layer.msgArr` and `Layer.updArr`.
-/
import proofs.«425332_j21088289423715_3_alg».proof.Proof.Gen.KernelIdeal.Frame
import proofs.«425332_j21088289423715_3_alg».proof.Proof.Layer
import proofs.«425332_j21088289423715_3_alg».proof.Proof.MessageCall
import proofs.«425332_j21088289423715_3_alg».proof.Proof.UpdateCall
import proofs.«425332_j21088289423715_3_alg».proof.Proof.WholeRun
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

/-! ## The host's own operations, named -/

/-- The gather's start indices from the source-node ids: an id below zero has the number of nodes added,
    then the vector is made a one-column matrix. -/
def srcIdx (x7 : IVec S1000000 32) : IVec S1000000x1 32 :=
  broadcastInDim S1000000x1 ![0] bcast_S1000000_S1000000x1_0
    (select (cmpi .slt x7 (broadcastInDim S1000000 ![] bcast_S_S1000000 (constantI S_ 32 0#32)))
      (addi x7 (broadcastInDim S1000000 ![] bcast_S_S1000000 (constantI S_ 32 100000#32))) x7)

/-- The source-node rows, one per edge. -/
def gathered (x0 : FVec Ideal S100000x64 .f32) (x7 : IVec S1000000 32) : FVec Ideal S1000000x64 .f32 :=
  Host.gather gather_S100000x64_S1000000x1_S1000000x64_1_0_n_n_0_1_164 x0 (srcIdx x7)

/-- The messages summed per target node, into a zero array. -/
def aggregated (x8 : IVec S1000000 32) (M : FVec Ideal S1000000x64 .f32) : FVec Ideal S100000x64 .f32 :=
  Host.scatterAdd scatter_S100000x64_S1000000x1_S1000000x64_1_0_0_1 (broadcastInDim S100000x64 ![] bcast_S_S100000x64 (constant S_ .f32 0x00000000#32))
    (broadcastInDim S1000000x1 ![0] bcast_S1000000_S1000000x1_0 x8) M

/-- The kernel program's result as one function of its nine arguments. -/
def kernelOut (x0 : FVec Ideal S100000x64 .f32) (x1 : FVec Ideal S1000000x64 .f32) (x2 : FVec Ideal S128x64 .f32)
    (x3 : FVec Ideal S64 .f32) (x4 : FVec Ideal S64x64 .f32) (x5 : FVec Ideal S64 .f32) (x6 : FVec Ideal S1 .f32)
    (x7 x8 : IVec S1000000 32) : FVec Ideal S100000x64 .f32 :=
  Layer.updArr x0 (aggregated x8 (Layer.msgArr (gathered x0 x7) x1 x2 x3)) x4 x5 x6

/-! ## The first host stretch, read at the buffers the first call stages -/

section Stretch0
variable (W : Valuation τ sig (Elt Ideal))

theorem first_v9 : after (hostOps0 (F := Ideal)) W (Proc.devRef .tc main_v9)
    = gathered (W (Proc.devRef .tc main_arg0)) (W (Proc.devRef .tc main_arg7)) := by
  after_results
  rfl

theorem first_v10 : after (hostOps0 (F := Ideal)) W (Proc.devRef .tc main_v10)
    = extractStridedSlice S64x64 ![0, 0] (W (Proc.devRef .tc main_arg2)) slices_S128x64_S64x64_0_0 := by
  after_results

theorem first_v11 : after (hostOps0 (F := Ideal)) W (Proc.devRef .tc main_v11)
    = extractStridedSlice S64x64 ![64, 0] (W (Proc.devRef .tc main_arg2)) slices_S128x64_S64x64_64_0 := by
  after_results

theorem first_v0 : after (hostOps0 (F := Ideal)) W (Proc.devRef .tc main_v0)
    = shapeCast S1x64 (W (Proc.devRef .tc main_arg3)) shapeCasts_S64_S1x64 := by
  after_results
  rfl

theorem first_v1 : after (hostOps0 (F := Ideal)) W (Proc.devRef .tc main_v1)
    = shapeCast S1x64 (W (Proc.devRef .tc main_arg5)) shapeCasts_S64_S1x64 := by
  after_results
  rfl

theorem first_v2 : after (hostOps0 (F := Ideal)) W (Proc.devRef .tc main_v2)
    = shapeCast S1x1 (W (Proc.devRef .tc main_arg6)) shapeCasts_S1_S1x1 := by
  after_results
  rfl

theorem first_arg0 : after (hostOps0 (F := Ideal)) W (Proc.devRef .tc main_arg0) = W (Proc.devRef .tc main_arg0) := by
  after_results
theorem first_arg1 : after (hostOps0 (F := Ideal)) W (Proc.devRef .tc main_arg1) = W (Proc.devRef .tc main_arg1) := by
  after_results
theorem first_arg4 : after (hostOps0 (F := Ideal)) W (Proc.devRef .tc main_arg4) = W (Proc.devRef .tc main_arg4) := by
  after_results
theorem first_arg8 : after (hostOps0 (F := Ideal)) W (Proc.devRef .tc main_arg8) = W (Proc.devRef .tc main_arg8) := by
  after_results

/-! ## The second host stretch, read at the buffers the second call stages -/

theorem second_v15 : after (hostOps1 (F := Ideal)) W (Proc.devRef .tc main_v15)
    = aggregated (W (Proc.devRef .tc main_arg8)) (W (Proc.devRef .tc main_v12)) := by
  after_results
  rfl

theorem second_arg0 : after (hostOps1 (F := Ideal)) W (Proc.devRef .tc main_arg0) = W (Proc.devRef .tc main_arg0) := by
  after_results
theorem second_arg4 : after (hostOps1 (F := Ideal)) W (Proc.devRef .tc main_arg4) = W (Proc.devRef .tc main_arg4) := by
  after_results
theorem second_v1 : after (hostOps1 (F := Ideal)) W (Proc.devRef .tc main_v1) = W (Proc.devRef .tc main_v1) := by
  after_results
theorem second_v2 : after (hostOps1 (F := Ideal)) W (Proc.devRef .tc main_v2) = W (Proc.devRef .tc main_v2) := by
  after_results

end Stretch0

/-! ## The two calls chained -/

variable (m : (ℓ : Loc nD τ sig) → Buf (Elt Ideal) ℓ) (ρ : Dev nD → PrngReg)

/-- The message array the first call leaves, as a function of the arguments. -/
theorem messages_eq (c : Dev nD) :
    W2 m ρ c (Proc.devRef .tc main_v12)
      = Layer.msgArr (gathered (m ((c : Thread nD τ).loc main_arg0)) (m ((c : Thread nD τ).loc main_arg7)))
          (m ((c : Thread nD τ).loc main_arg1)) (m ((c : Thread nD τ).loc main_arg2)) (m ((c : Thread nD τ).loc main_arg3)) := by
  refine (W2_arr m ρ c 5).trans ((msg_final (V1 m ρ) c).trans ?_)
  have h9 : V1 m ρ c main_v9 = gathered (m ((c : Thread nD τ).loc main_arg0)) (m ((c : Thread nD τ).loc main_arg7)) :=
    first_v9 (W0 m ρ c)
  have h1 : V1 m ρ c main_arg1 = m ((c : Thread nD τ).loc main_arg1) := first_arg1 (W0 m ρ c)
  have h10 : V1 m ρ c main_v10 = extractStridedSlice S64x64 ![0, 0] (m ((c : Thread nD τ).loc main_arg2)) slices_S128x64_S64x64_0_0 :=
    first_v10 (W0 m ρ c)
  have h11 : V1 m ρ c main_v11 = extractStridedSlice S64x64 ![64, 0] (m ((c : Thread nD τ).loc main_arg2)) slices_S128x64_S64x64_64_0 :=
    first_v11 (W0 m ρ c)
  have h0 : V1 m ρ c main_v0 = shapeCast S1x64 (m ((c : Thread nD τ).loc main_arg3)) shapeCasts_S64_S1x64 := first_v0 (W0 m ρ c)
  rw [h9, h1, h10, h11, h0]
  refine Layer.msgArrK_eq _ _ _ _ _ _ _ (fun k q => ?_) (fun k q => ?_) (fun q => ?_)
  · exact slice2_axis0_apply 0 _ slices_S128x64_S64x64_0_0 k q _ (Nat.zero_add _).symm
  · exact slice2_axis0_apply 64 _ slices_S128x64_S64x64_64_0 k q _ rfl
  · exact shapeCast_a_1a_apply _ shapeCasts_S64_S1x64 (0 : Fin 1) q

/-- The aggregated messages the second call is handed. -/
theorem agg_eq (c : Dev nD) :
    V3 m ρ c main_v15
      = aggregated (m ((c : Thread nD τ).loc main_arg8))
          (Layer.msgArr (gathered (m ((c : Thread nD τ).loc main_arg0)) (m ((c : Thread nD τ).loc main_arg7)))
            (m ((c : Thread nD τ).loc main_arg1)) (m ((c : Thread nD τ).loc main_arg2)) (m ((c : Thread nD τ).loc main_arg3))) := by
  refine (second_v15 (W2 m ρ c)).trans ?_
  have h8 : W2 m ρ c (Proc.devRef .tc main_arg8) = m ((c : Thread nD τ).loc main_arg8) :=
    (W2_of_ne m ρ c main_arg8 (by decide)).trans (first_arg8 (W0 m ρ c))
  rw [h8, messages_eq m ρ c]

/-- THE RESULT ARRAY at the last boundary: `kernelOut` of the nine arguments. -/
theorem result_eq (c : Dev nD) :
    W4 m ρ c (Proc.devRef .tc main_v16)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 5).trans ((Upd.upd_final (V3 m ρ) c).trans ?_)
  have hx : V3 m ρ c main_arg0 = m ((c : Thread nD τ).loc main_arg0) :=
    (second_arg0 (W2 m ρ c)).trans ((W2_of_ne m ρ c main_arg0 (by decide)).trans (first_arg0 (W0 m ρ c)))
  have hu : V3 m ρ c main_arg4 = m ((c : Thread nD τ).loc main_arg4) :=
    (second_arg4 (W2 m ρ c)).trans ((W2_of_ne m ρ c main_arg4 (by decide)).trans (first_arg4 (W0 m ρ c)))
  have hc : V3 m ρ c main_v1 = shapeCast S1x64 (m ((c : Thread nD τ).loc main_arg5)) shapeCasts_S64_S1x64 :=
    (second_v1 (W2 m ρ c)).trans ((W2_of_ne m ρ c main_v1 (by decide)).trans (first_v1 (W0 m ρ c)))
  have he : V3 m ρ c main_v2 = shapeCast S1x1 (m ((c : Thread nD τ).loc main_arg6)) shapeCasts_S1_S1x1 :=
    (second_v2 (W2 m ρ c)).trans ((W2_of_ne m ρ c main_v2 (by decide)).trans (first_v2 (W0 m ρ c)))
  rw [hx, hu, hc, he, agg_eq m ρ c]
  unfold kernelOut
  refine Layer.updArrK_eq _ _ _ _ _ _ _ (fun q => ?_) ?_
  · exact shapeCast_a_1a_apply _ shapeCasts_S64_S1x64 (0 : Fin 1) q
  · exact shapeCast_a_1a_apply _ shapeCasts_S1_S1x1 (0 : Fin 1) (0 : Fin 1)

/-- THE RUN, READ: every weakly fair execution of the kernel program ends with its result array at `kernelOut` of
    the arguments, the arguments unchanged. -/
theorem kernel_run : θ_run defs (onTc (τ := τ) (main (F := Ideal))) ⟨m, fun _ => 0, ρ⟩ (fun r => ∀ c : Dev nD,
      r.2.mem ((c.tc : Thread nD τ).loc main_v16)
        = kernelOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_main (F := Ideal) m ρ)

end Cert.KernelIdeal.Whole

end
-- ==== Proof.RefValue.lean ====
/-
  The reference program as the same two arrays.

  Its message stage multiplies the joined 128-long row `[x[s(e)] ‖ ef[e]]` by the whole 128 × 64 weight: the sum
  over the 128 joined columns is cut at column 64 into the sum over the gathered row against weight rows 0–63 and
  the sum over the edge's row against weight rows 64–127 — `Layer.msgArr` of the gathered rows.  Its update stage
  is `Layer.updArr` of the node features and the per-node sums, the cube in its gelu associated `(x·x)·x`.
-/
import proofs.«425332_j21088289423715_3_alg».proof.Proof.Gen.ReferenceIdeal.Read
import proofs.«425332_j21088289423715_3_alg».proof.Proof.Layer
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S100000x64, .f32⟩ : BufTy).Contents (Elt Ideal)) (x1 : (⟨S1000000x64, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S1, .f32⟩ : BufTy).Contents (Elt Ideal)) (x7 x8 : (⟨S1000000, .i32⟩ : BufTy).Contents (Elt Ideal))

/-! ## The message stage -/

/-- The joined row at a column below 64 is the gathered row there. -/
theorem joined_left (r : Fin 1000000) (q k : Fin 64) :
    val_main_v7 (F := Ideal) x0 x1 x7 (lidx_main_v8 (ix2 r q) (⟨k.val, Nat.lt_of_lt_of_le k.isLt (by decide)⟩ : Fin 128))
      = val_main_v6 (F := Ideal) x0 x7 (ix2 r k) := by
  unfold val_main_v7
  exact concatenate_pair_apply_left (t := S1000000x128) (s₁ := S1000000x64) (s₂ := S1000000x64) 1
    (val_main_v6 (F := Ideal) x0 x7) x1 concatenates_S1000000x64_S1000000x64_S1000000x128_d1
    (lidx_main_v8 (ix2 r q) (⟨k.val, Nat.lt_of_lt_of_le k.isLt (by decide)⟩ : Fin 128)) rfl (ix2 r k) (fun b => by
    match b with
    | ⟨0, _⟩ => rfl
    | ⟨1, _⟩ => rfl)

/-- The joined row at column `64 + k` is the edge's own row at `k`. -/
theorem joined_right (r : Fin 1000000) (q k : Fin 64) :
    val_main_v7 (F := Ideal) x0 x1 x7 (lidx_main_v8 (ix2 r q) (⟨64 + k.val, Nat.add_lt_add_left k.isLt 64⟩ : Fin 128))
      = x1 (ix2 r k) := by
  unfold val_main_v7
  exact concatenate_pair_apply_right (t := S1000000x128) (s₁ := S1000000x64) (s₂ := S1000000x64) 1
    (val_main_v6 (F := Ideal) x0 x7) x1 concatenates_S1000000x64_S1000000x64_S1000000x128_d1
    (lidx_main_v8 (ix2 r q) (⟨64 + k.val, Nat.add_lt_add_left k.isLt 64⟩ : Fin 128)) rfl rfl (ix2 r k) (fun b hb => by
    match b with
    | ⟨0, _⟩ => rfl
    | ⟨1, _⟩ => exact absurd rfl hb) (by show k.val + 64 = 64 + k.val; omega)

theorem ridx8_eq (r : Fin 1000000) (q : Fin 64) (k : Fin 128) : ridx_main_v8 (ix2 r q) k = ix2 k q :=
  funext fun a => Fin.ext (by
    match a with
    | ⟨0, _⟩ => rfl
    | ⟨1, _⟩ => rfl)

theorem bias10_eq (r : Fin 1000000) (q : Fin 64) : idx_main_v9 (idx_main_v10 (ix2 r q)) = ix1 q :=
  funext fun a => Fin.ext (by
    match a with
    | ⟨0, _⟩ => rfl)

/-- The linear part of a message: the 128-term sum cut at 64, plus the bias. -/
theorem lin_msg (r : Fin 1000000) (q : Fin 64) :
    val_main_v11 (F := Ideal) x0 x1 x2 x3 x7 (ix2 r q)
      = (∑ k : Fin 64, val_main_v6 (F := Ideal) x0 x7 (ix2 r k) * x2 (ix2 (⟨k.val, Nat.lt_of_lt_of_le k.isLt (by decide)⟩ : Fin 128) q))
        + (∑ k : Fin 64, x1 (ix2 r k) * x2 (ix2 (⟨64 + k.val, Nat.add_lt_add_left k.isLt 64⟩ : Fin 128) q))
        + x3 (ix1 q) := by
  rw [val_main_v11_apply, val_main_v8_apply, val_main_v10_apply, val_main_v9_apply, Layer.sum_128_split, bias10_eq]
  simp only [joined_left, joined_right, ridx8_eq, Ideal.addf_def]

/-- The reference's message array is `Layer.msgArr` of its gathered rows. -/
theorem msg_eq : val_main_v24 (F := Ideal) x0 x1 x2 x3 x7 = Layer.msgArr (val_main_v6 (F := Ideal) x0 x7) x1 x2 x3 := by
  funext i
  obtain ⟨r, q, rfl⟩ : ∃ (r : Fin 1000000) (q : Fin 64), i = ix2 r q := ⟨i 0, i 1, eq_ix2 i⟩
  show _ = Layer.msgAt (val_main_v6 (F := Ideal) x0 x7) x1 x2 x3 r q
  simp only [val_main_v24_apply, val_main_v23_apply, val_main_v22_apply, val_main_cst_3_apply, val_main_v21_apply,
    val_main_v20_apply, val_main_cst_2_apply, val_main_v19_apply, val_main_v18_apply, val_main_v17_apply,
    val_main_cst_1_apply, val_main_v16_apply, val_main_v15_apply, val_main_v14_apply, val_main_cst_apply,
    val_main_v13_apply, val_main_v12_apply, lin_msg, Ideal.mulf_def, Ideal.addf_def, Ideal.hostUnary_tanh_def, Ideal.ofBits_def]
  exact Layer.gelu_cube_left _

/-! ## The update stage -/

theorem lidx34_eq (r : Fin 100000) (q k : Fin 64) : lidx_main_v34 (ix2 r q) k = ix2 r k :=
  funext fun a => Fin.ext (by
    match a with
    | ⟨0, _⟩ => rfl
    | ⟨1, _⟩ => rfl)

theorem ridx34_eq (r : Fin 100000) (q k : Fin 64) : ridx_main_v34 (ix2 r q) k = ix2 k q :=
  funext fun a => Fin.ext (by
    match a with
    | ⟨0, _⟩ => rfl
    | ⟨1, _⟩ => rfl)

theorem bias36_eq (r : Fin 100000) (q : Fin 64) : idx_main_v35 (idx_main_v36 (ix2 r q)) = ix1 q :=
  funext fun a => Fin.ext (by
    match a with
    | ⟨0, _⟩ => rfl)

theorem scale_eq (j : S100000x64.Idx) : idx_main_v30 (idx_main_v31 j) = ix1 (0 : Fin 1) :=
  funext fun a => Fin.ext (by
    match a with
    | ⟨0, _⟩ => rfl)

/-- The scaled node features plus the per-node sums, at an index. -/
theorem mixed (j : S100000x64.Idx) :
    val_main_v33 (F := Ideal) x0 x1 x2 x3 x6 x7 x8 j
      = (Ideal.ofBits .f32 0x3F800000#32 + x6 (ix1 (0 : Fin 1))) * x0 j + val_main_v27 (F := Ideal) x0 x1 x2 x3 x7 x8 j := by
  rw [val_main_v33_apply, val_main_v32_apply, val_main_v31_apply, val_main_v30_apply, val_main_v29_apply, val_main_v28_apply,
    val_main_cst_5_apply, scale_eq]
  simp only [Ideal.mulf_def, Ideal.addf_def, Ideal.ofBits_def]

/-- The linear part of a result entry. -/
theorem lin_upd (r : Fin 100000) (q : Fin 64) :
    val_main_v37 (F := Ideal) x0 x1 x2 x3 x4 x5 x6 x7 x8 (ix2 r q)
      = (∑ k : Fin 64, ((Ideal.ofBits .f32 0x3F800000#32 + x6 (ix1 (0 : Fin 1))) * x0 (ix2 r k)
            + val_main_v27 (F := Ideal) x0 x1 x2 x3 x7 x8 (ix2 r k)) * x4 (ix2 k q))
        + x5 (ix1 q) := by
  rw [val_main_v37_apply, val_main_v34_apply, val_main_v36_apply, val_main_v35_apply, bias36_eq]
  simp only [lidx34_eq, ridx34_eq, mixed, Ideal.addf_def]

/-- The reference's result array is `Layer.updArr` of the node features and its per-node sums. -/
theorem upd_eq : val_main_v50 (F := Ideal) x0 x1 x2 x3 x4 x5 x6 x7 x8
    = Layer.updArr x0 (val_main_v27 (F := Ideal) x0 x1 x2 x3 x7 x8) x4 x5 x6 := by
  funext i
  obtain ⟨r, q, rfl⟩ : ∃ (r : Fin 100000) (q : Fin 64), i = ix2 r q := ⟨i 0, i 1, eq_ix2 i⟩
  show _ = Layer.updAt x0 (val_main_v27 (F := Ideal) x0 x1 x2 x3 x7 x8) x4 x5 x6 r q
  simp only [val_main_v50_apply, val_main_v49_apply, val_main_v48_apply, val_main_cst_9_apply, val_main_v47_apply,
    val_main_v46_apply, val_main_cst_8_apply, val_main_v45_apply, val_main_v44_apply, val_main_v43_apply,
    val_main_cst_7_apply, val_main_v42_apply, val_main_v41_apply, val_main_v40_apply, val_main_cst_6_apply,
    val_main_v39_apply, val_main_v38_apply, lin_upd, Ideal.mulf_def, Ideal.addf_def, Ideal.hostUnary_tanh_def, Ideal.ofBits_def]
  exact Layer.gelu_cube_left _

/-- The per-node sums are the host's scatter-add of the message array into a zero array. -/
theorem agg_eq : val_main_v27 (F := Ideal) x0 x1 x2 x3 x7 x8
    = Host.scatterAdd (F := Ideal) (φ := .f32) scatter_S100000x64_S1000000x1_S1000000x64_1_0_0_1 (val_main_v25 (F := Ideal)) (val_main_v26 (F := Ideal) x8)
        (Layer.msgArr (val_main_v6 (F := Ideal) x0 x7) x1 x2 x3) := by
  unfold val_main_v27
  rw [msg_eq]

end Cert.ReferenceIdeal.RefValue

end
-- ==== Proof.lean ====
/-
  The certificate of a message-passing layer: a Pallas program of two calls (a message kernel over the edges, an
  update kernel over the nodes, a gather before and a per-node sum between them on the host) against its jnp
  reference, equal over the extended reals.

  Both programs gather the same source-node rows and sum the same messages per target node with the same host
  operations; what differs is how a message's linear part is spelt — the kernel multiplies the gathered row by
  the top half of the weight and the edge's row by the bottom half, the reference joins the two rows and
  multiplies by the whole weight — and that is one sum of 128 terms cut at 64 (`Layer.sum_128_split`).  The two
  gelus are the same tanh form on the same four f32 words, the cube associated one way or the other.  No step
  divides or cancels, so the finiteness of the inputs is not used.

  The kernel's frames are the generated ones; its value is read off the same launch with the result array named
  (WholeRun), region by region (MessageCall, UpdateCall, KernelValue); the reference's run and its stages are
  the generated ones, read in RefValue.  The idealization rewrote nothing, so `preserves` is trivial.
-/
import proofs.«425332_j21088289423715_3_alg».proof.Defs
import proofs.«425332_j21088289423715_3_alg».proof.Proof.Gen.Kernel
import proofs.«425332_j21088289423715_3_alg».proof.Proof.Gen.Kernel.Skeleton
import proofs.«425332_j21088289423715_3_alg».proof.Proof.Gen.Kernel.Launch
import proofs.«425332_j21088289423715_3_alg».proof.Proof.Gen.Kernel.Points
import proofs.«425332_j21088289423715_3_alg».proof.Proof.Gen.Kernel.Frame
import proofs.«425332_j21088289423715_3_alg».proof.Proof.Gen.KernelIdeal
import proofs.«425332_j21088289423715_3_alg».proof.Proof.Gen.KernelIdeal.Skeleton
import proofs.«425332_j21088289423715_3_alg».proof.Proof.Gen.KernelIdeal.Launch
import proofs.«425332_j21088289423715_3_alg».proof.Proof.Gen.KernelIdeal.Points
import proofs.«425332_j21088289423715_3_alg».proof.Proof.Gen.KernelIdeal.Frame
import proofs.«425332_j21088289423715_3_alg».proof.Proof.Gen.ReferenceIdeal
import proofs.«425332_j21088289423715_3_alg».proof.Proof.Gen.Pre_finite_inputs
import proofs.«425332_j21088289423715_3_alg».proof.Proof.Gen.ReferenceIdeal.Run
import proofs.«425332_j21088289423715_3_alg».proof.Proof.Gen.ReferenceIdeal.Read
import proofs.«425332_j21088289423715_3_alg».proof.Proof.KernelValue
import proofs.«425332_j21088289423715_3_alg».proof.Proof.RefValue
import Idealize.ShloMosaic.Adequacy
import Idealize.ShloMosaic.Init

noncomputable section

namespace Cert.Proof

open Idealize.ShloMosaic Idealize.ShloMosaic.TcCoe Idealize.SL.Sem

/-! ## The two programs' host chains are one -/

/-- The gathered source-node rows: the same gather of the same wrapped indices in both programs. -/
theorem gathered_eq (x0 : FVec Ideal Cert.KernelIdeal.S100000x64 .f32) (x7 : IVec Cert.KernelIdeal.S1000000 32) :
    Cert.ReferenceIdeal.Read.val_main_v6 (F := Ideal) x0 x7 = Cert.KernelIdeal.Whole.gathered x0 x7 := by
  unfold Cert.KernelIdeal.Whole.gathered Cert.KernelIdeal.Whole.srcIdx Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0
  rfl

/-- The per-node sum: the same scatter-add into the same zero array in both programs. -/
theorem aggregated_eq (x8 : IVec Cert.KernelIdeal.S1000000 32) (M : FVec Ideal Cert.KernelIdeal.S1000000x64 .f32) :
    Host.scatterAdd Cert.ReferenceIdeal.scatter_S100000x64_S1000000x1_S1000000x64_1_0_0_1
        (Cert.ReferenceIdeal.Read.val_main_v25 (F := Ideal)) (Cert.ReferenceIdeal.Read.val_main_v26 (F := Ideal) x8) M
      = Cert.KernelIdeal.Whole.aggregated x8 M := by
  unfold Cert.KernelIdeal.Whole.aggregated Cert.ReferenceIdeal.Read.val_main_v25 Cert.ReferenceIdeal.Read.val_main_v26
    Cert.ReferenceIdeal.Read.val_main_cst_4
  rfl

/-- The reference's result is the kernel's function of the same nine arrays. -/
theorem reference_eq (x0 : FVec Ideal Cert.KernelIdeal.S100000x64 .f32) (x1 : FVec Ideal Cert.KernelIdeal.S1000000x64 .f32)
    (x2 : FVec Ideal Cert.KernelIdeal.S128x64 .f32) (x3 : FVec Ideal Cert.KernelIdeal.S64 .f32) (x4 : FVec Ideal Cert.KernelIdeal.S64x64 .f32)
    (x5 : FVec Ideal Cert.KernelIdeal.S64 .f32) (x6 : FVec Ideal Cert.KernelIdeal.S1 .f32) (x7 x8 : IVec Cert.KernelIdeal.S1000000 32) :
    Cert.ReferenceIdeal.Read.val_main_v50 (F := Ideal) x0 x1 x2 x3 x4 x5 x6 x7 x8
      = Cert.KernelIdeal.Whole.kernelOut x0 x1 x2 x3 x4 x5 x6 x7 x8 := by
  rw [Cert.ReferenceIdeal.RefValue.upd_eq, Cert.ReferenceIdeal.RefValue.agg_eq, gathered_eq, aggregated_eq]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the same result array, `kernelOut` of
    the arguments. -/
theorem algebraic : Cert.algebraic_KernelIdeal_ReferenceIdeal := by
  intro m ρ m' ρ' _ hagree
  refine ⟨_, Cert.KernelIdeal.Whole.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v50_eq, h0, h1, h2, h3, h4, h5, h6, h7, h8]
  exact reference_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
